-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x4 : Shape := ⟨3, ![64, 2048, 4]⟩
abbrev S512x2 : Shape := ⟨2, ![512, 2]⟩
abbrev S_ : Shape := ⟨0, ![]⟩

class Facts : Prop where
  bcast_S_S64x2048x4 : S_.BroadcastsInDim S64x2048x4 (![] : Fin 0 → Fin S64x2048x4.rank)
  reducesTo_S64x2048x4_S_d0_1_2 : S64x2048x4.ReducesTo [0, 1, 2] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S64x2048x4 .f32) (main_arg1 : FVec F S512x2 .f32) : IVec S_ 1 :=
  let main_v0 : FVec F S64x2048x4 .f32 := Host.absf main_arg0
  let main_cst : FVec F S_ .f32 := constant S_ .f32 0x7F800000#32
  let main_v1 : FVec F S64x2048x4 .f32 := broadcastInDim S64x2048x4 ![] bcast_S_S64x2048x4 main_cst
  let main_v2 : IVec S64x2048x4 1 := cmpf .olt main_v0 main_v1
  let main_c : IVec S_ 1 := constantI S_ 1 1#1
  let main_v3 : IVec S_ 1 := (fun x v => Host.reduce IntOp.andi x v reducesTo_S64x2048x4_S_d0_1_2 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Kernel.lean ====
abbrev S64x2048x4 : Shape := ⟨3, ![64, 2048, 4]⟩
abbrev S512x2 : Shape := ⟨2, ![512, 2]⟩
abbrev S_ : Shape := ⟨0, ![]⟩
abbrev S512 : Shape := ⟨1, ![512]⟩
abbrev S1 : Shape := ⟨1, ![1]⟩
abbrev S1x512 : Shape := ⟨2, ![1, 512]⟩
abbrev S64x2048x2 : Shape := ⟨3, ![64, 2048, 2]⟩
abbrev S64x2x2048 : Shape := ⟨3, ![64, 2, 2048]⟩
abbrev S2x512 : Shape := ⟨2, ![2, 512]⟩
abbrev S8x1x1 : Shape := ⟨3, ![8, 1, 1]⟩
abbrev S8x2x2048 : Shape := ⟨3, ![8, 2, 2048]⟩
abbrev S2x128 : Shape := ⟨2, ![2, 128]⟩
abbrev S1x128 : Shape := ⟨2, ![1, 128]⟩
abbrev S1x1x1 : Shape := ⟨3, ![1, 1, 1]⟩
abbrev S8x1x2048 : Shape := ⟨3, ![8, 1, 2048]⟩
abbrev S8x2048 : Shape := ⟨2, ![8, 2048]⟩
abbrev S128 : Shape := ⟨1, ![128]⟩
abbrev S1x128x1 : Shape := ⟨3, ![1, 128, 1]⟩
abbrev S8x128x2048 : Shape := ⟨3, ![8, 128, 2048]⟩
abbrev S8x128 : Shape := ⟨2, ![8, 128]⟩
abbrev S8 : Shape := ⟨1, ![8]⟩
abbrev S8x1 : Shape := ⟨2, ![8, 1]⟩
abbrev S1x1 : Shape := ⟨2, ![1, 1]⟩

abbrev nBuf : Space → Nat
  | .hbm => 29
  | .vmem => 8
  | .smem => 0
  | _ => 0

abbrev bufTy : (tb : Table) → Fin (tcTables nBuf tb) → BufTy
  | .hbm, ⟨0, _⟩ => ⟨S64x2048x4, .f32⟩
  | .hbm, ⟨1, _⟩ => ⟨S512x2, .f32⟩
  | .hbm, ⟨2, _⟩ => ⟨S512x2, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S64x2048x2, .f32⟩
  | .hbm, ⟨22, _⟩ => ⟨S64x2x2048, .f32⟩
  | .hbm, ⟨23, _⟩ => ⟨S2x512, .f32⟩
  | .hbm, ⟨24, _⟩ => ⟨S8x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S8x2x2048, .f32⟩
  | .local _ .vmem, ⟨1, _⟩ => ⟨S8x2x2048, .f32⟩
  | .local _ .vmem, ⟨2, _⟩ => ⟨S2x128, .f32⟩
  | .local _ .vmem, ⟨3, _⟩ => ⟨S2x128, .f32⟩
  | .local _ .vmem, ⟨4, _⟩ => ⟨S1x128, .f32⟩
  | .local _ .vmem, ⟨5, _⟩ => ⟨S1x128, .f32⟩
  | .local _ .vmem, ⟨6, _⟩ => ⟨S1x1x1, .f32⟩
  | .local _ .vmem, ⟨7, _⟩ => ⟨S1x1x1, .f32⟩
  | _, _ => ⟨S64x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S512x2_S512_d1 : S512x2.ReducesTo [1] S512
  h_S_ : 0 < S_.numel
  reducesTo_S512_S_d0 : S512.ReducesTo [0] S_
  bcast_S_S1 : S_.BroadcastsInDim S1 (![] : Fin 0 → Fin S1.rank)
  bcast_S1_S512_0 : S1.BroadcastsInDim S512 (![0] : Fin 1 → Fin S512.rank)
  shapeCasts_S512_S1x512 : S512.ShapeCasts S1x512
  slices_S64x2048x4_S64x2048x2_0_0_0 : S64x2048x4.Slices ![0, 0, 0] S64x2048x2
  transposes_S64x2048x2_S64x2x2048_0_2_1 : S64x2048x2.Transposes [0, 2, 1] S64x2x2048
  transposes_S512x2_S2x512_1_0 : S512x2.Transposes [1, 0] S2x512
  inb_S1x1x1_S1x1x1_0_0_0 : ∀ a, (![0, 0, 0] : Fin 3 → Nat) a + S1x1x1.size a ≤ S1x1x1.size a
  h_S1x1x1 : 0 < S1x1x1.numel
  inb_S8x2x2048_S8x2x2048_0_0_0 : ∀ a, (![0, 0, 0] : Fin 3 → Nat) a + S8x2x2048.size a ≤ S8x2x2048.size a
  h_S8x2x2048 : 0 < S8x2x2048.numel
  shapeCasts_S8x2x2048_S8x2x2048 : S8x2x2048.ShapeCasts S8x2x2048
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S8x2x2048_o0_0_0_S8x1x2048 : S8x2x2048.Slices ![0, 0, 0] S8x1x2048
  shapeCasts_S8x1x2048_S8x2048 : S8x1x2048.ShapeCasts S8x2048
  slices_S8x2x2048_o0_1_0_S8x1x2048 : S8x2x2048.Slices ![0, 1, 0] S8x1x2048
  slices_S2x128_o0_0_S1x128 : S2x128.Slices ![0, 0] S1x128
  shapeCasts_S1x128_S128 : S1x128.ShapeCasts S128
  slices_S2x128_o1_0_S1x128 : S2x128.Slices ![1, 0] S1x128
  shapeCasts_S8x2048_S8x1x2048 : S8x2048.ShapeCasts S8x1x2048
  shapeCasts_S128_S1x128x1 : S128.ShapeCasts S1x128x1
  broadcasts_S8x1x2048_S8x128x2048 : S8x1x2048.Broadcasts S8x128x2048
  broadcasts_S1x128x1_S8x128x2048 : S1x128x1.Broadcasts S8x128x2048
  reduces_S8x128x2048_S8x128 : S8x128x2048.Reduces [2] S8x128
  broadcasts_S1x128_S8x128 : S1x128.Broadcasts S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  reducesTo_S8x1x1_S_d0_1_2 : S8x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x2048.size a ≤ S64x2x2048.size a
  hwx0_0 : ∀ i : grid0.Coords, EltTy.bits .f32 = 32 ∨ (Rect.block (s := S64x2x2048) S8x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x512.size a
  hwx0_1 : ∀ i : grid0.Coords, EltTy.bits .f32 = 32 ∨ (Rect.block (s := S2x512) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x512.size a
  hwx0_2 : ∀ i : grid0.Coords, EltTy.bits .f32 = 32 ∨ (Rect.block (s := S1x512) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_v14) S8x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x4 : Shape := ⟨3, ![64, 2048, 4]⟩
abbrev S512x2 : Shape := ⟨2, ![512, 2]⟩
abbrev S_ : Shape := ⟨0, ![]⟩
abbrev S512 : Shape := ⟨1, ![512]⟩
abbrev S1 : Shape := ⟨1, ![1]⟩
abbrev S64x2048x2 : Shape := ⟨3, ![64, 2048, 2]⟩
abbrev S64x1x2048x2 : Shape := ⟨4, ![64, 1, 2048, 2]⟩
abbrev S1x512x1x2 : Shape := ⟨4, ![1, 512, 1, 2]⟩
abbrev S64x512x2048x2 : Shape := ⟨4, ![64, 512, 2048, 2]⟩
abbrev S64x512x2048 : Shape := ⟨3, ![64, 512, 2048]⟩
abbrev S64x512 : Shape := ⟨2, ![64, 512]⟩
abbrev S1x512 : Shape := ⟨2, ![1, 512]⟩
abbrev S64 : Shape := ⟨1, ![64]⟩

abbrev nBuf : Space → Nat
  | .hbm => 41
  | .vmem => 0
  | .smem => 0
  | _ => 0

abbrev bufTy : (tb : Table) → Fin (tcTables nBuf tb) → BufTy
  | .hbm, ⟨0, _⟩ => ⟨S64x2048x4, .f32⟩
  | .hbm, ⟨1, _⟩ => ⟨S512x2, .f32⟩
  | .hbm, ⟨2, _⟩ => ⟨S512x2, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S512, .f32⟩
  | .hbm, ⟨19, _⟩ => ⟨S512, .f32⟩
  | .hbm, ⟨20, _⟩ => ⟨S64x2048x2, .f32⟩
  | .hbm, ⟨21, _⟩ => ⟨S64x1x2048x2, .f32⟩
  | .hbm, ⟨22, _⟩ => ⟨S1x512x1x2, .f32⟩
  | .hbm, ⟨23, _⟩ => ⟨S64x512x2048x2, .f32⟩
  | .hbm, ⟨24, _⟩ => ⟨S64x512x2048x2, .f32⟩
  | .hbm, ⟨25, _⟩ => ⟨S64x512x2048x2, .f32⟩
  | .hbm, ⟨26, _⟩ => ⟨S64x512x2048x2, .f32⟩
  | .hbm, ⟨27, _⟩ => ⟨S_, .f32⟩
  | .hbm, ⟨28, _⟩ => ⟨S64x512x2048, .f32⟩
  | .hbm, ⟨29, _⟩ => ⟨S_, .f32⟩
  | .hbm, ⟨30, _⟩ => ⟨S64x512, .f32⟩
  | .hbm, ⟨31, _⟩ => ⟨S1x512, .f32⟩
  | .hbm, ⟨32, _⟩ => ⟨S64x512, .f32⟩
  | .hbm, ⟨33, _⟩ => ⟨S64x512, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | _, _ => ⟨S64x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S512x2_S512_d1 : S512x2.ReducesTo [1] S512
  h_S_ : 0 < S_.numel
  reducesTo_S512_S_d0 : S512.ReducesTo [0] S_
  bcast_S_S1 : S_.BroadcastsInDim S1 (![] : Fin 0 → Fin S1.rank)
  bcast_S1_S512_0 : S1.BroadcastsInDim S512 (![0] : Fin 1 → Fin S512.rank)
  slices_S64x2048x4_S64x2048x2_0_0_0 : S64x2048x4.Slices ![0, 0, 0] S64x2048x2
  bcast_S64x2048x2_S64x1x2048x2_0_2_3 : S64x2048x2.BroadcastsInDim S64x1x2048x2 (![0, 2, 3] : Fin 3 → Fin S64x1x2048x2.rank)
  bcast_S512x2_S1x512x1x2_1_3 : S512x2.BroadcastsInDim S1x512x1x2 (![1, 3] : Fin 2 → Fin S1x512x1x2.rank)
  bcast_S64x1x2048x2_S64x512x2048x2_0_1_2_3 : S64x1x2048x2.BroadcastsInDim S64x512x2048x2 (![0, 1, 2, 3] : Fin 4 → Fin S64x512x2048x2.rank)
  bcast_S1x512x1x2_S64x512x2048x2_0_1_2_3 : S1x512x1x2.BroadcastsInDim S64x512x2048x2 (![0, 1, 2, 3] : Fin 4 → Fin S64x512x2048x2.rank)
  reducesTo_S64x512x2048x2_S64x512x2048_d3 : S64x512x2048x2.ReducesTo [3] S64x512x2048
  reducesTo_S64x512x2048_S64x512_d2 : S64x512x2048.ReducesTo [2] S64x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  reducesTo_S64x512_S64_d1 : S64x512.ReducesTo [1] S64
  bcast_S_S64 : S_.BroadcastsInDim S64 (![] : Fin 0 → Fin S64.rank)
  reducesTo_S64_S_d0 : S64.ReducesTo [0] S_

variable [Facts₀]

class Facts : Prop extends Facts₀ where

variable [Facts]
-- ==== Proof.SumLaw.lean ====
/-
  Two facts about finite sums that the comparison of the two programs rests on.

  * A sum over `Fin N` with `N = A * B` is the double sum over a tile index `a : Fin A` and a position `b : Fin B`
    inside the tile, the flat index being `B * a + b` (`sum_tiles`). This holds in any commutative additive monoid, so in
    particular over the extended reals, where addition is commutative and associative although not cancellative.
  * Over the extended reals, multiplying a finite sum by a constant `k` with `0 ≤ k < ⊤` distributes over the sum
    (`sum_mul_const`). Distributivity fails in general on the extended reals (`(⊤ + ⊥) * k` against `⊤ * k + ⊥ * k` for a
    negative `k`), but for a nonnegative finite factor it holds for all summands, infinite ones included.
-/
import Idealize.ShloMosaic.PureOps.Ideal.Laws

open scoped BigOperators

namespace SumLaw

/-- Position `b` of tile `a`, as a flat index, is below `A * B`. -/
theorem tile_lt {A B : ℕ} (a : Fin A) (b : Fin B) : B * a.val + b.val < A * B := by
  have ha := a.isLt
  have hb := b.isLt
  calc B * a.val + b.val < B * a.val + B := by omega
    _ = B * (a.val + 1) := by ring
    _ ≤ B * A := Nat.mul_le_mul_left _ ha
    _ = A * B := Nat.mul_comm _ _

/-- A sum over `Fin N`, `N = A * B`, tile by tile. -/
theorem sum_tiles {M : Type*} [AddCommMonoid M] {A B N : ℕ} (h : A * B = N) (f : Fin N → M) :
    ∑ i : Fin N, f i = ∑ a : Fin A, ∑ b : Fin B, f ⟨B * a.val + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = B * a.val + b.val
  exact Nat.add_comm _ _

/-- A nonnegative finite factor distributes over a finite sum of extended reals. -/
theorem sum_mul_const {ι : Type*} (k : EReal) (hk : 0 ≤ k) (hk' : k ≠ ⊤) (s : Finset ι) (f : ι → EReal) :
    (∑ i ∈ s, f i) * k = ∑ i ∈ s, f i * k := by
  classical
  induction s using Finset.induction_on with
  | empty => simp
  | insert a s ha ih =>
    rw [Finset.sum_insert ha, Finset.sum_insert ha, EReal.right_distrib_of_nonneg_of_ne_top hk hk', ih]

end SumLaw
-- ==== Proof.Spec.lean ====
/-
  The quantity both programs compute, as a function of the trajectories `x` (64 trajectories of 2048 points with 4
  channels, of which the first two are coordinates in the plane), the targets `t` (512 points of the plane) and a
  weight per target `w`:

      for every trajectory b and target m:  the least squared distance, over the points n of b, between the point and m,
      times the target's weight;  the total over b and m, divided by 512.

  The weights are a softmax of the targets' norms; both programs compute them by the same operations, so here they are a
  parameter. The two programs differ in the order of the summation and in where the division stands:

    * one sums, for each tile of 8 trajectories and each tile of 128 targets, over the tile's 8 × 128 pairs, adds the four
      target tiles of a trajectory tile together, adds the eight trajectory tiles and divides the total by 512 (`lossTiled`);
    * the other sums over the 512 targets for each trajectory, divides each of these 64 sums by 512 and adds the
      quotients (`lossRows`).

  They agree on all extended reals (`lossTiled_eq_lossRows`): the sums are regroupings of one another (`sum_tiles`, and a
  swap of two of the four summations), and dividing by 512 is multiplying by the nonnegative real 1/512, which distributes
  over a finite sum whatever the summands are (`sum_mul_const`). Nothing here needs the inputs to be finite.
-/
import proofs.«135891_j38259568673143_1_alg».proof.Proof.SumLaw
import Idealize.ShloMosaic.Lib.ValueIdx

open scoped BigOperators

noncomputable section

namespace Spec

open Idealize.ShloMosaic Idealize.ShloMosaic.ValueIdx

/-- The shapes of the trajectories, the targets and the weights. -/
abbrev XS : Shape := ⟨3, ![64, 2048, 4]⟩
abbrev TS : Shape := ⟨2, ![512, 2]⟩
abbrev WS : Shape := ⟨1, ![512]⟩

/-- The value the minimum over a trajectory's points starts from: the pattern of `+∞`, never evaluated. -/
abbrev minInit : EReal := Ideal.ofBits .f32 0x7F800000#32

/-- The divisor, the pattern of `512.0`. -/
abbrev divisor : EReal := Ideal.ofBits .f32 0x44000000#32

/-- `512.0` denotes the real number 512. -/
theorem divisor_eq : divisor = ((512 : ℝ) : EReal) := by
  simp [divisor, Ideal.ofBits, Ideal.ieee, -EReal.coe_mul]; norm_num

/-- The squared distance in the plane between point `n` of trajectory `b` and target `m`. -/
def dist2 (x : XS.Idx → EReal) (t : TS.Idx → EReal) (b : Fin 64) (m : Fin 512) (n : Fin 2048) : EReal :=
  (x (ix3 b n 0) - t (ix2 m 0)) * (x (ix3 b n 0) - t (ix2 m 0))
    + (x (ix3 b n 1) - t (ix2 m 1)) * (x (ix3 b n 1) - t (ix2 m 1))

/-- The least squared distance from target `m` to a point of trajectory `b`. -/
def minDist (x : XS.Idx → EReal) (t : TS.Idx → EReal) (b : Fin 64) (m : Fin 512) : EReal :=
  (Finset.univ : Finset (Fin 2048)).fold min minInit (dist2 x t b m)

/-- One summand: the least squared distance, weighted. -/
def term (x : XS.Idx → EReal) (t : TS.Idx → EReal) (w : WS.Idx → EReal) (b : Fin 64) (m : Fin 512) : EReal :=
  minDist x t b m * w (ix1 m)

/-- Trajectory `r` of trajectory tile `b8`, and target `l` of target tile `mt`. -/
abbrev row (b8 : Fin 8) (r : Fin 8) : Fin 64 := ⟨8 * b8.val + r.val, by omega⟩
abbrev col (mt : Fin 4) (l : Fin 128) : Fin 512 := ⟨128 * mt.val + l.val, by omega⟩

/-- What one pair of tiles contributes: the sum over the tile's 8 × 128 pairs. -/
def tilePart (x : XS.Idx → EReal) (t : TS.Idx → EReal) (w : WS.Idx → EReal) (b8 : Fin 8) (mt : Fin 4) : EReal :=
  ∑ r : Fin 8, ∑ l : Fin 128, term x t w (row b8 r) (col mt l)

/-- Tile by tile, the division last. -/
def lossTiled (x : XS.Idx → EReal) (t : TS.Idx → EReal) (w : WS.Idx → EReal) : EReal :=
  Ideal.div (∑ b8 : Fin 8, ∑ mt : Fin 4, tilePart x t w b8 mt) divisor

/-- Trajectory by trajectory, each trajectory's sum divided. -/
def lossRows (x : XS.Idx → EReal) (t : TS.Idx → EReal) (w : WS.Idx → EReal) : EReal :=
  ∑ b : Fin 64, Ideal.div (∑ m : Fin 512, term x t w b m) divisor

/-- The two arrangements are one extended real. -/
theorem lossTiled_eq_lossRows (x : XS.Idx → EReal) (t : TS.Idx → EReal) (w : WS.Idx → EReal) :
    lossTiled x t w = lossRows x t w := by
  have hk : (0 : EReal) ≤ ((1 / 512 : ℝ) : EReal) := by exact_mod_cast (by norm_num : (0 : ℝ) ≤ 1 / 512)
  have hk' : ((1 / 512 : ℝ) : EReal) ≠ ⊤ := EReal.coe_ne_top _
  unfold lossTiled lossRows
  rw [divisor_eq, Ideal.div_coe (by norm_num : (512 : ℝ) ≠ 0)]
  simp only [Ideal.div_coe (by norm_num : (512 : ℝ) ≠ 0)]
  rw [← SumLaw.sum_mul_const _ hk hk']
  congr 1
  rw [SumLaw.sum_tiles (A := 8) (B := 8) rfl]
  refine Finset.sum_congr rfl fun b8 _ => ?_
  simp only [tilePart]
  rw [Finset.sum_comm]
  refine Finset.sum_congr rfl fun r _ => ?_
  exact (SumLaw.sum_tiles (A := 4) (B := 128) rfl (fun m => term x t w (row b8 r) m)).symm

end Spec

end
-- ==== Proof.RefValue.lean ====
/-
  The reference program's result, read at the ideal instance: the sum over the trajectories of each trajectory's weighted
  sum of least squared distances divided by 512 — `Spec.lossRows` of the two arguments and of the weights the program
  itself computes from the targets.
-/
import proofs.«135891_j38259568673143_1_alg».proof.Proof.Spec
import proofs.«135891_j38259568673143_1_alg».proof.Proof.Gen.ReferenceIdeal.Read

open scoped BigOperators

noncomputable section

namespace Cert.ReferenceIdeal.RefValue

open Cert.ReferenceIdeal Cert.ReferenceIdeal.Read Idealize.ShloMosaic Idealize.ShloMosaic.ValueIdx

/-- The squared differences of the two coordinates, summed from zero, at trajectory `b`, target `m`, point `n`. -/
theorem v19_eq (x : (⟨S64x2048x4, .f32⟩ : BufTy).Contents (Elt Ideal)) (t : (⟨S512x2, .f32⟩ : BufTy).Contents (Elt Ideal))
    (b : Fin 64) (m : Fin 512) (n : Fin 2048) :
    val_main_v19 (F := Ideal) x t (ix3 b m n) = Spec.dist2 x t b m n := by
  have hx : ∀ k : Fin 2, idx_main_v12 (idx_main_v13 (idx_main_v15 (idx_main_v19 (ix3 b m n) k)))
      = ix3 b n (⟨k.val, by have := k.isLt; omega⟩ : Fin 4) := fun k =>
    funext fun a => Fin.ext (by match a with | ⟨0, _⟩ => rfl | ⟨1, _⟩ => rfl | ⟨2, _⟩ => rfl)
  have ht : ∀ k : Fin 2, idx_main_v14 (idx_main_v16 (idx_main_v19 (ix3 b m n) k)) = ix2 m k := fun k =>
    funext fun a => Fin.ext (by match a with | ⟨0, _⟩ => rfl | ⟨1, _⟩ => rfl)
  rw [val_main_v19_apply, val_main_cst_2_apply]
  show Ideal.ofBits .f32 0x00000000#32 + _ = _
  rw [Ideal.ofBits_zero_f32, zero_add, Fin.sum_univ_two]
  simp only [val_main_v18_apply, val_main_v17_apply, val_main_v15_apply, val_main_v16_apply, val_main_v13_apply,
    val_main_v14_apply, val_main_v12_apply, Ideal.mulf_def, Ideal.subf_def, hx, ht]
  rfl

/-- The minimum from `+∞` over the points of trajectory `b`, at target `m`: the least squared distance. -/
theorem v20_eq (x : (⟨S64x2048x4, .f32⟩ : BufTy).Contents (Elt Ideal)) (t : (⟨S512x2, .f32⟩ : BufTy).Contents (Elt Ideal))
    (b : Fin 64) (m : Fin 512) :
    val_main_v20 (F := Ideal) x t (ix2 b m) = Spec.minDist x t b m := by
  have h : S64x512x2048.Reduces [2] S64x512 := by decide
  have hf : (val_main_v19 (F := Ideal) x t ∘ h.lift (ix2 b m)) = Spec.dist2 x t b m := by
    funext n
    refine Eq.trans (congrArg (val_main_v19 (F := Ideal) x t) ?_) (v19_eq x t b m n)
    exact funext fun a => Fin.ext (by match a with | ⟨0, _⟩ => rfl | ⟨1, _⟩ => rfl | ⟨2, _⟩ => rfl)
  unfold val_main_v20
  rw [Host.reduce_eq_fold_single FloatOps.minimumf _ _ Gen.reducesTo_S64x512x2048_S64x512_d2 h Gen.h_S_, hf]
  rfl

/-- The weights broadcast down the trajectories: at (b, m) the weight of target `m`. -/
theorem v22_eq (t : (⟨S512x2, .f32⟩ : BufTy).Contents (Elt Ideal)) (b : Fin 64) (m : Fin 512) :
    val_main_v22 (F := Ideal) t (ix2 b m) = val_main_v11 (F := Ideal) t (ix1 m) := by
  rw [val_main_v22_apply, val_main_v21_apply]
  exact congrArg _ (funext fun a => Fin.ext (by match a with | ⟨0, _⟩ => rfl))

/-- The sum from zero over the targets of the weighted least squared distances, for trajectory `b`. -/
theorem v24_eq (x : (⟨S64x2048x4, .f32⟩ : BufTy).Contents (Elt Ideal)) (t : (⟨S512x2, .f32⟩ : BufTy).Contents (Elt Ideal))
    (b : Fin 64) :
    val_main_v24 (F := Ideal) x t (ix1 b) = ∑ m : Fin 512, Spec.term x t (val_main_v11 (F := Ideal) t) b m := by
  rw [val_main_v24_apply, val_main_cst_4_apply]
  show Ideal.ofBits .f32 0x00000000#32 + _ = _
  rw [Ideal.ofBits_zero_f32, zero_add]
  refine Finset.sum_congr rfl fun m _ => ?_
  have hi : idx_main_v24 (ix1 b) m = ix2 b m :=
    funext fun a => Fin.ext (by match a with | ⟨0, _⟩ => rfl | ⟨1, _⟩ => rfl)
  rw [hi, val_main_v23_apply, v20_eq, v22_eq]
  rfl

/-- Trajectory `b`'s sum divided by 512. -/
theorem v26_eq (x : (⟨S64x2048x4, .f32⟩ : BufTy).Contents (Elt Ideal)) (t : (⟨S512x2, .f32⟩ : BufTy).Contents (Elt Ideal))
    (b : Fin 64) :
    val_main_v26 (F := Ideal) x t (ix1 b)
      = Ideal.div (∑ m : Fin 512, Spec.term x t (val_main_v11 (F := Ideal) t) b m) Spec.divisor := by
  rw [val_main_v26_apply, v24_eq, val_main_v25_apply, val_main_cst_5_apply]
  rfl

/-- The indices of a vector of 64 elements are the 64 coordinates. -/
def idx64 : Fin 64 ≃ S64.Idx where
  toFun := ix1
  invFun j := j 0
  left_inv _ := rfl
  right_inv j := (eq_ix1 j).symm

/-- The reference's result is `Spec.lossRows` at the weights it computes (`val_main_v11`: the softmax of the negated norms). -/
theorem result_eq (x : (⟨S64x2048x4, .f32⟩ : BufTy).Contents (Elt Ideal)) (t : (⟨S512x2, .f32⟩ : BufTy).Contents (Elt Ideal)) :
    val_main_v27 (F := Ideal) x t = fun _ => Spec.lossRows x t (val_main_v11 (F := Ideal) t) := by
  funext i
  rw [val_main_v27_apply, val_main_cst_6_apply]
  show Ideal.ofBits .f32 0x00000000#32 + _ = _
  rw [Ideal.ofBits_zero_f32, zero_add, ← Equiv.sum_comp idx64]
  exact Finset.sum_congr rfl fun b _ => v26_eq x t b

end Cert.ReferenceIdeal.RefValue

end
-- ==== Proof.KernelPieces.lean ====
/-
  What one run of the kernel body leaves in the output block, in each of its two control cases.

  At the first target tile of a trajectory tile the body first stores zeros in the output block, reads them back, and
  stores the zeros plus the tile pair's contribution; at the other target tiles it reads the block's running total and
  stores the total plus the contribution. In both cases the last store covers the one-element block, so the block ends
  holding the body's arithmetic (`k0_pay2`) applied to the three input blocks and to what the addition started from: the
  zero block in the first case, the previous contents in the second.
-/
import proofs.«135891_j38259568673143_1_alg».proof.Proof.Gen.KernelIdeal.Frame
import Idealize.ShloMosaic.Lib.Pipeline.Value
import Idealize.ShloMosaic.Lib.Tactic

open scoped BigOperators

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from the first target tile: the block, holding `xo`, ends at the body's arithmetic over `xo`. -/
theorem out_B (c : Dev nD) (i : grid0.Coords) (a2 : Memref sig .tc .vmem S8x2x2048 .f32) (h2 : a2.IsWhole)
    (a3 : Memref sig .tc .vmem S2x128 .f32) (h3 : a3.IsWhole) (a4 : Memref sig .tc .vmem S1x128 .f32) (h4 : a4.IsWhole)
    (a5 : Memref sig .tc .vmem S1x1x1 .f32) (h5 : a5.IsWhole) (hc : ¬cond0_0 i)
    (x0 : Vec F S8x2x2048 .f32) (x1 : Vec F S2x128 .f32) (x2 : Vec F S1x128 .f32) (xo : Vec F S1x1x1 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S8x2x2048) hz3, View.ld_unit_zero (S := S2x128) hz2, View.ld_unit_zero (S := S1x128) hz2,
    View.ld_unit_zero (S := S1x1x1) hz3]

/-- At the first target tile: the block ends at the body's arithmetic over the zero block it has just stored. -/
theorem out_A (c : Dev nD) (i : grid0.Coords) (a2 : Memref sig .tc .vmem S8x2x2048 .f32) (h2 : a2.IsWhole)
    (a3 : Memref sig .tc .vmem S2x128 .f32) (h3 : a3.IsWhole) (a4 : Memref sig .tc .vmem S1x128 .f32) (h4 : a4.IsWhole)
    (a5 : Memref sig .tc .vmem S1x1x1 .f32) (h5 : a5.IsWhole) (hc : cond0_0 i)
    (x0 : Vec F S8x2x2048 .f32) (x1 : Vec F S2x128 .f32) (x2 : Vec F S1x128 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S8x2x2048) hz3, View.ld_unit_zero (S := S2x128) hz2, View.ld_unit_zero (S := S1x128) hz2]

end Cert.KernelIdeal.Pieces

end
-- ==== Proof.KernelBlocks.lean ====
/-
  The three input blocks the kernel body sees at a grid point, read at an index, as entries of the program's arguments.

  The grid has 8 × 4 points; point `t` is trajectory tile `t / 4` and target tile `t % 4`. Before the launch the program
  keeps the first two channels of the trajectories and moves the point axis last, transposes the targets, and computes
  the targets' weights (a softmax of the negated norms: `weights`, left as the operations' composed term, never opened).
  So entry `(r, k, n)` of the trajectory block at `t` is coordinate `k` of point `n` of trajectory `8 (t / 4) + r`; entry
  `(k, l)` of the target block is coordinate `k` of target `128 (t % 4) + l`; entry `(0, l)` of the weight block is that
  target's weight.
-/
import proofs.«135891_j38259568673143_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

open scoped BigOperators

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]

/-- The negated norms of the targets. -/
def negNorm (tg : Vec F S512x2 .f32) : Vec F S512 .f32 :=
  Host.negf (Host.sqrt (Host.reduceAdd (mulf tg tg) (constant S_ .f32 0x00000000#32) reducesTo_S512x2_S512_d1 h_S_))

/-- The negated norms less their maximum. -/
def shifted (tg : Vec F S512x2 .f32) : Vec F S512 .f32 :=
  subf (negNorm tg) (broadcastInDim S512 ![0] bcast_S1_S512_0 (broadcastInDim S1 ![] bcast_S_S1
    (maximumf (constant S_ .f32 0xFF800000#32)
      (Host.reduce FloatOps.maximumf (negNorm tg) (constant S_ .f32 0xFF800000#32) reducesTo_S512_S_d0 h_S_))))

/-- The targets' weights as the program computes them before the launch: the exponentials over their sum. -/
def weights (tg : Vec F S512x2 .f32) : Vec F S512 .f32 :=
  Host.divf (Host.exp (shifted tg)) (broadcastInDim S512 ![0] bcast_S1_S512_0 (broadcastInDim S1 ![] bcast_S_S1
    (Host.reduceAdd (Host.exp (shifted tg)) (constant S_ .f32 0x00000000#32) reducesTo_S512_S_d0 h_S_)))

variable (m : (ℓ : Loc nD τ sig) → Buf (Elt F) ℓ)

/-- The trajectories as the launch finds them: two channels kept, the point axis last. -/
theorem V14_eq (c : Dev nD) : (V m c main_v14 : Vec F S64x2x2048 .f32)
    = transpose S64x2x2048 [0, 2, 1] (extractStridedSlice S64x2048x2 ![0, 0, 0] (m ((c : Thread nD τ).loc main_arg0))
        slices_S64x2048x4_S64x2048x2_0_0_0) transposes_S64x2048x2_S64x2x2048_0_2_1 := by
  dsimp only [V, V0]
  simp only [hostOps0, hostOps0_1, List.flatten_cons, List.flatten_nil, List.append_nil, List.cons_append, List.nil_append]
  after_results

/-- The targets as the launch finds them: transposed. -/
theorem V15_eq (c : Dev nD) : (V m c main_v15 : Vec F S2x512 .f32)
    = transpose S2x512 [1, 0] (m ((c : Thread nD τ).loc main_arg1)) transposes_S512x2_S2x512_1_0 := by
  dsimp only [V, V0]
  simp only [hostOps0, hostOps0_1, List.flatten_cons, List.flatten_nil, List.append_nil, List.cons_append, List.nil_append]
  after_results

/-- The weights as the launch finds them: a row. -/
theorem V12_eq (c : Dev nD) : (V m c main_v12 : Vec F S1x512 .f32)
    = shapeCast S1x512 (weights (m ((c : Thread nD τ).loc main_arg1))) shapeCasts_S512_S1x512 := by
  dsimp only [V, V0]
  simp only [hostOps0, hostOps0_1, List.flatten_cons, List.flatten_nil, List.append_nil, List.cons_append, List.nil_append]
  after_results
  rfl

/-- Which blocks point `t` is given: trajectory tile `t / 4`, target tile `t % 4`. -/
theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)

/-- The trajectory block at an index. -/
theorem xblk_apply (c : Dev nD) (t : Fin cfg0.N) (r : Fin 8) (k : Fin 2) (n : Fin 2048) (hb : 8 * (t.val / 4) + r.val < 64) (hk : k.val < 4) :
    (iblk m c 0 t : Vec F S8x2x2048 .f32) (ix3 r k n)
      = m ((c : Thread nD τ).loc main_arg0) (ix3 (⟨8 * (t.val / 4) + r.val, hb⟩ : Fin 64) n (⟨k.val, hk⟩ : Fin 4)) := by
  have hi := idx0 t
  unfold iblk
  rw [View.read_apply]
  show V m c main_v14 _ = _
  rw [V14_eq]
  refine (transpose_apply [0, 2, 1] _ transposes_S64x2048x2_S64x2x2048_0_2_1 _
    (ix3 (⟨8 * (t.val / 4) + r.val, hb⟩ : Fin 64) n k) fun b => ?_).trans ?_
  · match b with
    | ⟨0, _⟩ => show 8 * (t.val / 4) + r.val = win0_0.index t 0 * 8 + 1 * r.val; rw [hi.1]; omega
    | ⟨1, _⟩ => show k.val = win0_0.index t 1 * 2 + 1 * k.val; rw [hi.2.1]; omega
    | ⟨2, _⟩ => show n.val = win0_0.index t 2 * 2048 + 1 * n.val; rw [hi.2.2]; omega
  · refine extractStridedSlice_apply _ _ slices_S64x2048x4_S64x2048x2_0_0_0 _ _ fun a => ?_
    match a with
    | ⟨0, _⟩ => show 8 * (t.val / 4) + r.val = 0 + (8 * (t.val / 4) + r.val); omega
    | ⟨1, _⟩ => show n.val = 0 + n.val; omega
    | ⟨2, _⟩ => show k.val = 0 + k.val; omega

/-- The target block at an index. -/
theorem tblk_apply (c : Dev nD) (t : Fin cfg0.N) (k : Fin 2) (l : Fin 128) (hm : 128 * (t.val % 4) + l.val < 512) :
    (iblk m c 1 t : Vec F S2x128 .f32) (ix2 k l)
      = m ((c : Thread nD τ).loc main_arg1) (ix2 (⟨128 * (t.val % 4) + l.val, hm⟩ : Fin 512) k) := by
  have hi := idx1 t
  unfold iblk
  rw [View.read_apply]
  show V m c main_v15 _ = _
  rw [V15_eq]
  refine transpose_apply [1, 0] _ transposes_S512x2_S2x512_1_0 _
    (ix2 (⟨128 * (t.val % 4) + l.val, hm⟩ : Fin 512) k) fun b => ?_
  match b with
  | ⟨0, _⟩ => show k.val = win0_1.index t 0 * 2 + 1 * k.val; rw [hi.1]; omega
  | ⟨1, _⟩ => show 128 * (t.val % 4) + l.val = win0_1.index t 1 * 128 + 1 * l.val; rw [hi.2]; omega

/-- The weight block at an index. -/
theorem wblk_apply (c : Dev nD) (t : Fin cfg0.N) (l : Fin 128) (hm : 128 * (t.val % 4) + l.val < 512) :
    (iblk m c 2 t : Vec F S1x128 .f32) (ix2 0 l)
      = weights (m ((c : Thread nD τ).loc main_arg1)) (ix1 (⟨128 * (t.val % 4) + l.val, hm⟩ : Fin 512)) := by
  have hi := idx2 t
  unfold iblk
  rw [View.read_apply]
  show V m c main_v12 _ = _
  rw [V12_eq]
  refine shapeCast_apply _ shapeCasts_S512_S1x512 _ (ix1 (⟨128 * (t.val % 4) + l.val, hm⟩ : Fin 512)) ?_
  rw [Shape.rowMajor_val_two, Shape.rowMajor_val_one]
  show 128 * (t.val % 4) + l.val = (win0_2.index t 0 * 1 + 1 * 0) * 512 + (win0_2.index t 1 * 128 + 1 * l.val)
  rw [hi.1, hi.2]; omega

end Cert.KernelIdeal.Blocks

end
-- ==== Proof.KernelPayload.lean ====
/-
  The kernel body's arithmetic at the ideal instance, read at its one output element: the running total it found in the
  output block plus, over the 8 trajectories and 128 targets of the two input blocks, the least squared distance between
  the target and the trajectory's points, times the target's weight.
-/
import proofs.«135891_j38259568673143_1_alg».proof.Proof.Spec
import proofs.«135891_j38259568673143_1_alg».proof.Proof.Gen.KernelIdeal.Skeleton
import Idealize.ShloMosaic.Lib.Pipeline.Value
import Idealize.ShloMosaic.Lib.ValueLayout

open scoped BigOperators

noncomputable section

namespace Cert.KernelIdeal.Payload

open Cert.KernelIdeal Cert.KernelIdeal.Gen Idealize.ShloMosaic Idealize.ShloMosaic.ValueIdx

/-- The least squared distance from target `l` of a target block `tb` (coordinates by rows) to the points of
    trajectory `r` of a trajectory block `xb` (coordinates by the middle axis). -/
def blockMin (xb : S8x2x2048.Idx → EReal) (tb : S2x128.Idx → EReal) (r : Fin 8) (l : Fin 128) : EReal :=
  (Finset.univ : Finset (Fin 2048)).fold min Spec.minInit fun n =>
    (xb (ix3 r 0 n) - tb (ix2 0 l)) * (xb (ix3 r 0 n) - tb (ix2 0 l))
      + (xb (ix3 r 1 n) - tb (ix2 1 l)) * (xb (ix3 r 1 n) - tb (ix2 1 l))

/-! ## Layout operations of the body read at coordinates -/

section Reads
variable {α : Type}

/-- A unit middle axis dropped: `[a, 1, c]` cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- A unit middle axis added: `[a, c]` cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A vector between two unit axes: `[b]` cast to `[1, b, 1]` reads, at `(u, l, w)`, the operand at `l`. -/
theorem shapeCast_b_1b1_apply {b : ℕ} (x : (⟨1, ![b]⟩ : Shape).Idx → α)
    (h : (⟨1, ![b]⟩ : Shape).ShapeCasts ⟨3, ![1, b, 1]⟩) (u : Fin 1) (l : Fin b) (w : Fin 1) :
    shapeCast ⟨3, ![1, b, 1]⟩ x h (ix3 u l w) = x (ix1 l) :=
  shapeCast_apply x h _ _ (by
    have hu : u.val = 0 := by omega
    have hw : w.val = 0 := by omega
    rw [Shape.rowMajor_val_three, Shape.rowMajor_val_one]
    show l.val = (u.val * b + l.val) * 1 + w.val
    rw [hu, hw, Nat.zero_mul, Nat.zero_add, Nat.mul_one, Nat.add_zero])

/-- A trailing unit axis added: `[a]` cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The plane of a `[8, 2, 2048]` block at middle coordinate `0`. -/
theorem slice_plane0_apply (X : S8x2x2048.Idx → α) (h : S8x2x2048.Slices ![0, 0, 0] S8x1x2048)
    (r : Fin 8) (u : Fin 1) (n : Fin 2048) :
    extractStridedSlice S8x1x2048 ![0, 0, 0] X h (ix3 r u n) = X (ix3 r 0 n) :=
  slice3_axis1_apply 0 X h r u n 0 (by have := u.isLt; show 0 = 0 + u.val; omega)

/-- The plane of a `[8, 2, 2048]` block at middle coordinate `1`. -/
theorem slice_plane1_apply (X : S8x2x2048.Idx → α) (h : S8x2x2048.Slices ![0, 1, 0] S8x1x2048)
    (r : Fin 8) (u : Fin 1) (n : Fin 2048) :
    extractStridedSlice S8x1x2048 ![0, 1, 0] X h (ix3 r u n) = X (ix3 r 1 n) :=
  slice3_axis1_apply 1 X h r u n 1 (by have := u.isLt; show 1 = 1 + u.val; omega)

/-- Row `0` of a `[2, 128]` block. -/
theorem slice_row0_apply (T : S2x128.Idx → α) (h : S2x128.Slices ![0, 0] S1x128) (u : Fin 1) (l : Fin 128) :
    extractStridedSlice S1x128 ![0, 0] T h (ix2 u l) = T (ix2 0 l) :=
  slice2_axis0_apply 0 T h u l 0 (by have := u.isLt; show 0 = 0 + u.val; omega)

/-- Row `1` of a `[2, 128]` block. -/
theorem slice_row1_apply (T : S2x128.Idx → α) (h : S2x128.Slices ![1, 0] S1x128) (u : Fin 1) (l : Fin 128) :
    extractStridedSlice S1x128 ![1, 0] T h (ix2 u l) = T (ix2 1 l) :=
  slice2_axis0_apply 1 T h u l 1 (by have := u.isLt; show 1 = 1 + u.val; omega)

/-- A `[8, 1, 2048]` array broadcast along the middle axis reads, at `(r, l, n)`, the operand at `(r, 0, n)`. -/
theorem broadcast_mid_apply (W : S8x1x2048.Idx → α) (h : S8x1x2048.Broadcasts S8x128x2048)
    (r : Fin 8) (l : Fin 128) (n : Fin 2048) :
    broadcastTo S8x128x2048 W h (ix3 r l n) = W (ix3 r 0 n) :=
  broadcastTo_apply W h (ix3 r l n) (ix3 r 0 n) fun ax => by
    match ax with
    | ⟨0, _⟩ => rfl
    | ⟨1, _⟩ => rfl
    | ⟨2, _⟩ => rfl

/-- A `[1, 128, 1]` array broadcast along the outer axes reads, at `(r, l, n)`, the operand at `(0, l, 0)`. -/
theorem broadcast_outer_apply (W : S1x128x1.Idx → α) (h : S1x128x1.Broadcasts S8x128x2048)
    (r : Fin 8) (l : Fin 128) (n : Fin 2048) :
    broadcastTo S8x128x2048 W h (ix3 r l n) = W (ix3 0 l 0) :=
  broadcastTo_apply W h (ix3 r l n) (ix3 0 l 0) fun ax => by
    match ax with
    | ⟨0, _⟩ => rfl
    | ⟨1, _⟩ => rfl
    | ⟨2, _⟩ => rfl

end Reads

/-! ## The four coordinate vectors of the body read at `(r, l, n)` -/

section Coords
variable {α : Type}

/-- The trajectories' first coordinate, spread over the targets: at `(r, l, n)` it is the block at `(r, 0, n)`. -/
theorem xs0_apply (xb : S8x2x2048.Idx → α) (h0 : S8x2x2048.ShapeCasts S8x2x2048)
    (h1 : S8x2x2048.Slices ![0, 0, 0] S8x1x2048) (h2 : S8x1x2048.ShapeCasts S8x2048)
    (h3 : S8x2048.ShapeCasts S8x1x2048) (h4 : S8x1x2048.Broadcasts S8x128x2048)
    (r : Fin 8) (l : Fin 128) (n : Fin 2048) :
    broadcastTo S8x128x2048 (shapeCast S8x1x2048 (shapeCast S8x2048
      (extractStridedSlice S8x1x2048 ![0, 0, 0] (shapeCast S8x2x2048 xb h0) h1) h2) h3) h4 (ix3 r l n)
      = xb (ix3 r 0 n) := by
  refine (broadcast_mid_apply _ _ r l n).trans ?_
  refine (shapeCast_ac_a1c_apply _ _ r 0 n).trans ?_
  refine (shapeCast_a1c_ac_apply _ _ r n).trans ?_
  refine (slice_plane0_apply _ _ r 0 n).trans ?_
  rw [shapeCast_self]

/-- The trajectories' second coordinate, spread over the targets: at `(r, l, n)` it is the block at `(r, 1, n)`. -/
theorem xs1_apply (xb : S8x2x2048.Idx → α) (h0 : S8x2x2048.ShapeCasts S8x2x2048)
    (h1 : S8x2x2048.Slices ![0, 1, 0] S8x1x2048) (h2 : S8x1x2048.ShapeCasts S8x2048)
    (h3 : S8x2048.ShapeCasts S8x1x2048) (h4 : S8x1x2048.Broadcasts S8x128x2048)
    (r : Fin 8) (l : Fin 128) (n : Fin 2048) :
    broadcastTo S8x128x2048 (shapeCast S8x1x2048 (shapeCast S8x2048
      (extractStridedSlice S8x1x2048 ![0, 1, 0] (shapeCast S8x2x2048 xb h0) h1) h2) h3) h4 (ix3 r l n)
      = xb (ix3 r 1 n) := by
  refine (broadcast_mid_apply _ _ r l n).trans ?_
  refine (shapeCast_ac_a1c_apply _ _ r 0 n).trans ?_
  refine (shapeCast_a1c_ac_apply _ _ r n).trans ?_
  refine (slice_plane1_apply _ _ r 0 n).trans ?_
  rw [shapeCast_self]

/-- The targets' first coordinate, spread over trajectories and points: at `(r, l, n)` it is the block at `(0, l)`. -/
theorem ts0_apply (tb : S2x128.Idx → α) (h0 : S2x128.ShapeCasts S2x128) (h1 : S2x128.Slices ![0, 0] S1x128)
    (h2 : S1x128.ShapeCasts S128) (h3 : S128.ShapeCasts S1x128x1) (h4 : S1x128x1.Broadcasts S8x128x2048)
    (r : Fin 8) (l : Fin 128) (n : Fin 2048) :
    broadcastTo S8x128x2048 (shapeCast S1x128x1 (shapeCast S128
      (extractStridedSlice S1x128 ![0, 0] (shapeCast S2x128 tb h0) h1) h2) h3) h4 (ix3 r l n)
      = tb (ix2 0 l) := by
  refine (broadcast_outer_apply _ _ r l n).trans ?_
  refine (shapeCast_b_1b1_apply _ _ 0 l 0).trans ?_
  refine (shapeCast_1a_a_apply _ _ l).trans ?_
  refine (slice_row0_apply _ _ 0 l).trans ?_
  rw [shapeCast_self]

/-- The targets' second coordinate, spread over trajectories and points: at `(r, l, n)` it is the block at `(1, l)`. -/
theorem ts1_apply (tb : S2x128.Idx → α) (h0 : S2x128.ShapeCasts S2x128) (h1 : S2x128.Slices ![1, 0] S1x128)
    (h2 : S1x128.ShapeCasts S128) (h3 : S128.ShapeCasts S1x128x1) (h4 : S1x128x1.Broadcasts S8x128x2048)
    (r : Fin 8) (l : Fin 128) (n : Fin 2048) :
    broadcastTo S8x128x2048 (shapeCast S1x128x1 (shapeCast S128
      (extractStridedSlice S1x128 ![1, 0] (shapeCast S2x128 tb h0) h1) h2) h3) h4 (ix3 r l n)
      = tb (ix2 1 l) := by
  refine (broadcast_outer_apply _ _ r l n).trans ?_
  refine (shapeCast_b_1b1_apply _ _ 0 l 0).trans ?_
  refine (shapeCast_1a_a_apply _ _ l).trans ?_
  refine (slice_row1_apply _ _ 0 l).trans ?_
  rw [shapeCast_self]

end Coords

/-! ## The reductions of the body read at coordinates -/

/-- A minimum reduction over one axis, read at the ideal values: the fold of `min` from the accumulator's value over
    that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over `(r, l)` of the `[8, 128]` result, point `n` of the reduced last axis is `(r, l, n)`. -/
theorem lift_points (h : S8x128x2048.Reduces [2] S8x128) (r : Fin 8) (l : Fin 128) (n : Fin 2048) :
    h.lift (ix2 r l) n = ix3 r l n := by
  funext ax
  match ax with
  | ⟨0, _⟩ => exact Fin.ext rfl
  | ⟨1, _⟩ => exact Fin.ext rfl
  | ⟨2, _⟩ => exact Fin.ext rfl

/-- Over `r` of the `[8]` result, target `l` of the reduced last axis is `(r, l)`. -/
theorem lift_targets (h : S8x128.Reduces [1] S8) (r : Fin 8) (l : Fin 128) : h.lift (ix1 r) l = ix2 r l := by
  funext ax
  match ax with
  | ⟨0, _⟩ => exact Fin.ext rfl
  | ⟨1, _⟩ => exact Fin.ext rfl

/-- Over the one index of the `[1]` result, trajectory `r` of the reduced first axis is `(r, c)`. -/
theorem lift_rows (h : S8x1.Reduces [0] S1) (c : Fin 1) (r : Fin 8) : h.lift (ix1 c) r = ix2 r c := by
  funext ax
  match ax with
  | ⟨0, _⟩ => exact Fin.ext rfl
  | ⟨1, _⟩ => exact Fin.ext rfl

/-- The body's payload at its one element: what was there plus the block pair's weighted sum. -/
theorem pay2_apply (xb : Vec Ideal S8x2x2048 .f32) (tb : Vec Ideal S2x128 .f32) (wb : Vec Ideal S1x128 .f32)
    (acc : Vec Ideal S1x1x1 .f32) (j : S1x1x1.Idx) :
    k0_pay2 (F := Ideal) xb tb wb acc j
      = acc j + ∑ r : Fin 8, ∑ l : Fin 128, blockMin xb tb r l * wb (ix2 0 l) := by
  obtain ⟨a, b, c, rfl⟩ : ∃ a b c, j = ix3 a b c := ⟨_, _, _, eq_ix3 j⟩
  unfold k0_pay2
  refine (addf_apply _ _ _).trans ?_
  rw [shapeCast_self]
  refine congrArg (acc (ix3 a b c) + ·) ?_
  refine (shapeCast_ab_1ab_apply _ _ a b c).trans ?_
  refine (shapeCast_a_1a_apply _ _ b c).trans ?_
  refine (Ideal.multiReduction_add_single _ _ _ _ _ _).trans ?_
  refine Finset.sum_congr rfl fun (r : Fin 8) _ => ?_
  refine (congrArg _ (lift_rows _ c r)).trans ?_
  refine (shapeCast_a_a1_apply _ _ r c).trans ?_
  refine (Ideal.multiReduction_add_single _ _ _ _ _ _).trans ?_
  refine Finset.sum_congr rfl fun (l : Fin 128) _ => ?_
  refine (congrArg _ (lift_targets _ r l)).trans ?_
  refine (mulf_apply _ _ _).trans ?_
  refine congrArg₂ (· * ·) ?_ ?_
  · refine (multiReduction_minimumf_single _ _ _ _ _ _).trans ?_
    unfold blockMin
    refine congrArg (fun f => Finset.fold min _ f Finset.univ) (funext fun (n : Fin 2048) => ?_)
    refine (congrArg _ (lift_points _ r l n)).trans ?_
    simp only [addf_apply, mulf_apply, subf_apply, xs0_apply, xs1_apply, ts0_apply, ts1_apply]
  · refine (broadcastTo_1b_ab_apply _ _ r l).trans ?_
    exact congrFun (shapeCast_self _ _) _

end Cert.KernelIdeal.Payload

end
-- ==== Proof.KernelValue.lean ====
/-
  What the kernel program's result holds at the ideal instance.

  The output block of a trajectory tile is carried across the tile's four grid points: reset at the first, increased at
  each by the tile pair's contribution, written back to the result array after the fourth. So entry `b8` of the
  eight-entry result array ends at the sum over the four target tiles of `Spec.tilePart`; the operations after the
  launch add the eight entries and divide by 512: `Spec.lossTiled` of the program's arguments and of the weights it
  computed before the launch.
-/
import proofs.«135891_j38259568673143_1_alg».proof.Proof.Spec
import proofs.«135891_j38259568673143_1_alg».proof.Proof.KernelPieces
import proofs.«135891_j38259568673143_1_alg».proof.Proof.KernelBlocks
import proofs.«135891_j38259568673143_1_alg».proof.Proof.KernelPayload
import Idealize.ShloMosaic.Lib.Pipeline.Value
import Idealize.ShloMosaic.Lib.StableHlo.Run
import Idealize.ShloMosaic.Lib.IdealHost
import Idealize.ShloMosaic.Lib.Tactic

open scoped BigOperators

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The program's two arguments and the weights it computes, on core `c`. -/
abbrev xA (c : Dev nD) : Spec.XS.Idx → EReal := m ((c : Thread nD τ).loc main_arg0)
abbrev tA (c : Dev nD) : Spec.TS.Idx → EReal := m ((c : Thread nD τ).loc main_arg1)
abbrev wA (c : Dev nD) : Spec.WS.Idx → EReal := Blocks.weights (m ((c : Thread nD τ).loc main_arg1))

/-- The three input blocks at a grid point, at their literal types. -/
abbrev xblk (c : Dev nD) (t : Fin cfg0.N) : Vec Ideal S8x2x2048 .f32 := iblk m c 0 t
abbrev tblk (c : Dev nD) (t : Fin cfg0.N) : Vec Ideal S2x128 .f32 := iblk m c 1 t
abbrev wblk (c : Dev nD) (t : Fin cfg0.N) : Vec Ideal S1x128 .f32 := iblk m c 2 t

/-- Entries of the three blocks at point `t = 4 b8 + mt`, as entries of the arguments and of the weights. -/
theorem x_entry (c : Dev nD) (t : Fin cfg0.N) (b8 : Fin 8) (mt : Fin 4) (ht : t.val = 4 * b8.val + mt.val)
    (r : Fin 8) (k : Fin 2) (n : Fin 2048) (hk : k.val < 4) :
    xblk m c t (ix3 r k n) = xA m c (ix3 (Spec.row b8 r) n (⟨k.val, hk⟩ : Fin 4)) := by
  have h4 : t.val / 4 = b8.val := by have := mt.isLt; omega
  have hr := r.isLt
  have hb8 := b8.isLt
  have er : (⟨8 * (t.val / 4) + r.val, by omega⟩ : Fin 64) = Spec.row b8 r :=
    Fin.ext (by show 8 * (t.val / 4) + r.val = 8 * b8.val + r.val; omega)
  exact (Blocks.xblk_apply m c t r k n (by omega) hk).trans (by rw [er])

theorem t_entry (c : Dev nD) (t : Fin cfg0.N) (b8 : Fin 8) (mt : Fin 4) (ht : t.val = 4 * b8.val + mt.val)
    (k : Fin 2) (l : Fin 128) :
    tblk m c t (ix2 k l) = tA m c (ix2 (Spec.col mt l) k) := by
  have h4 : t.val % 4 = mt.val := by have := mt.isLt; omega
  have hl := l.isLt
  have hmt := mt.isLt
  have el : (⟨128 * (t.val % 4) + l.val, by omega⟩ : Fin 512) = Spec.col mt l :=
    Fin.ext (by show 128 * (t.val % 4) + l.val = 128 * mt.val + l.val; omega)
  exact (Blocks.tblk_apply m c t k l (by omega)).trans (by rw [el])

theorem w_entry (c : Dev nD) (t : Fin cfg0.N) (b8 : Fin 8) (mt : Fin 4) (ht : t.val = 4 * b8.val + mt.val)
    (l : Fin 128) :
    wblk m c t (ix2 0 l) = wA m c (ix1 (Spec.col mt l)) := by
  have h4 : t.val % 4 = mt.val := by have := mt.isLt; omega
  have hl := l.isLt
  have hmt := mt.isLt
  have el : (⟨128 * (t.val % 4) + l.val, by omega⟩ : Fin 512) = Spec.col mt l :=
    Fin.ext (by show 128 * (t.val % 4) + l.val = 128 * mt.val + l.val; omega)
  exact (Blocks.wblk_apply m c t l (by omega)).trans (by rw [el])

/-- The contribution of the blocks at point `t = 4 b8 + mt` is the tile pair's part of the total. -/
theorem part_eq (c : Dev nD) (t : Fin cfg0.N) (b8 : Fin 8) (mt : Fin 4) (ht : t.val = 4 * b8.val + mt.val) :
    ∑ r : Fin 8, ∑ l : Fin 128, Payload.blockMin (xblk m c t) (tblk m c t) r l * wblk m c t (ix2 0 l)
      = Spec.tilePart (xA m c) (tA m c) (wA m c) b8 mt := by
  have h4 : t.val / 4 = b8.val := by have := mt.isLt; omega
  have h4' : t.val % 4 = mt.val := by have := mt.isLt; omega
  unfold Spec.tilePart
  refine Finset.sum_congr rfl fun r _ => Finset.sum_congr rfl fun l _ => ?_
  unfold Spec.term Spec.minDist Payload.blockMin
  refine congrArg₂ (· * ·) (Finset.fold_congr fun n _ => ?_) (w_entry m c t b8 mt ht l)
  unfold Spec.dist2
  rw [x_entry m c t b8 mt ht r 0 n (by decide), x_entry m c t b8 mt ht r 1 n (by decide),
    t_entry m c t b8 mt ht 0 l, t_entry m c t b8 mt ht 1 l]
  rfl

/-- What the output block holds after a point does not depend on how the point's number is written. -/
theorem outsAt0_congr (c : Dev nD) {n n' : ℕ} (h : n = n') (hn : n < cfg0.N) (hn' : n' < cfg0.N) :
    outsAt0 m c n hn = outsAt0 m c n' hn' := by subst h; rfl

/-- The block the reset stores is zero. -/
theorem pay1_apply (j : S1x1x1.Idx) : k0_pay1 (F := Ideal) j = 0 := by
  show Ideal.ofBits .f32 0x00000000#32 = 0
  exact Ideal.ofBits_zero_f32

/-- After the first target tile of trajectory tile `b8` the output block holds that tile pair's part. -/
theorem first (c : Dev nD) (t : Fin cfg0.N) (b8 : Fin 8) (ht : t.val = 4 * b8.val) (j : S1x1x1.Idx) :
    outsAt0 m c t.val t.isLt j = Spec.tilePart (xA m c) (tA m c) (wA m c) b8 0 := by
  have h0 : t.val % 4 = 0 := by omega
  have e := (outsAt0_A m c t h0).trans (Pieces.out_A c (grid0.coords t) (ms0_0 t) (hs0_0 t) (ms0_1 t) (hs0_1 t) (ms0_2 t) (hs0_2 t) (ms0_3 t) (hs0_3 t) ((hcond0_0 t).mpr h0)
    (xblk m c t) (tblk m c t) (wblk m c t))
  rw [congrFun e j, Payload.pay2_apply, pay1_apply, zero_add]
  exact part_eq m c t b8 0 (by show t.val = 4 * b8.val + 0; omega)

/-- After a later target tile `mt` it holds what it held after the point before, plus that tile pair's part. -/
theorem next (c : Dev nD) (t : Fin cfg0.N) (b8 : Fin 8) (mt : Fin 4) (ht : t.val = 4 * b8.val + mt.val) (hmt : mt.val ≠ 0)
    (p : ℕ) (hp : p + 1 = t.val) (hpN : p < cfg0.N) (j : S1x1x1.Idx) :
    outsAt0 m c t.val t.isLt j = outsAt0 m c p hpN j + Spec.tilePart (xA m c) (tA m c) (wA m c) b8 mt := by
  have h0 : ¬t.val % 4 = 0 := by have := mt.isLt; omega
  have e := (outsAt0_B m c t h0).trans (Pieces.out_B c (grid0.coords t) (ms0_0 t) (hs0_0 t) (ms0_1 t) (hs0_1 t) (ms0_2 t) (hs0_2 t) (ms0_3 t) (hs0_3 t) (fun h => h0 ((hcond0_0 t).mp h))
    (xblk m c t) (tblk m c t) (wblk m c t) (outsAt0 m c (t.val - 1) (Nat.lt_of_le_of_lt (Nat.sub_le _ _) t.isLt)))
  rw [congrFun e j, Payload.pay2_apply, part_eq m c t b8 mt ht, outsAt0_congr m c (show t.val - 1 = p by omega) _ hpN]

/-- After the last target tile of trajectory tile `b8` it holds the sum of the four parts. -/
theorem total (c : Dev nD) (t : Fin cfg0.N) (b8 : Fin 8) (hb : t.val = 4 * b8.val + 3) (j : S1x1x1.Idx) :
    outsAt0 m c t.val t.isLt j = ∑ mt : Fin 4, Spec.tilePart (xA m c) (tA m c) (wA m c) b8 mt := by
  have hN : cfg0.N = 32 := N_0
  have hb8 := b8.isLt
  have l0 : 4 * b8.val < cfg0.N := by omega
  have l1 : 4 * b8.val + 1 < cfg0.N := by omega
  have l2 : 4 * b8.val + 2 < cfg0.N := by omega
  have s0 := first m c ⟨4 * b8.val, l0⟩ b8 rfl j
  have s1 := next m c ⟨4 * b8.val + 1, l1⟩ b8 1 rfl (by decide) (4 * b8.val) rfl l0 j
  have s2 := next m c ⟨4 * b8.val + 2, l2⟩ b8 2 rfl (by decide) (4 * b8.val + 1) rfl l1 j
  have s3 := next m c t b8 3 hb (by decide) (4 * b8.val + 2) (by omega) l2 j
  dsimp only at s0 s1 s2
  rw [s3, s2, s1, s0, Fin.sum_univ_four]

/-- The sum over the four target tiles, per trajectory tile. -/
def tileTotal (c : Dev nD) (b8 : Fin 8) : EReal := ∑ mt : Fin 4, Spec.tilePart (xA m c) (tA m c) (wA m c) b8 mt

/-- The result array of the launch: entry `b8` is trajectory tile `b8`'s total. -/
def outArr (c : Dev nD) : S8x1x1.Idx → EReal := fun i => tileTotal m c (i 0)

/-- Which block of the result array point `t` writes: entry `t / 4`. -/
theorem idx3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- What a write-back writes: the block is written after the last target tile, when it holds the tile's total. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 32 := N_0
  have h3 : t.val % 4 = 3 := (flush0_3 t).mp hf
  have hi := idx3 t
  have hlt : t.val / 4 < 8 := by have := t.isLt; omega
  show (cfg0.win 3).cut (grid0.coords t) ((dats m 0 c).after 3 t) = _
  rw [after0_3]
  funext y
  rw [View.read_apply]
  show outsAt0 m c t.val t.isLt y = outArr m c (((cfg0.win 3).blk t).view.emb y)
  rw [total m c t ⟨t.val / 4, hlt⟩ (by show t.val = 4 * (t.val / 4) + 3; omega) y]
  unfold outArr tileTotal
  have hy : (y 0).val < 1 := (y 0).isLt
  have e : (((cfg0.win 3).blk t).view.emb y) 0 = (⟨t.val / 4, hlt⟩ : Fin 8) :=
    Fin.ext (by show win0_3.index t 0 * 1 + 1 * (y 0).val = t.val / 4; rw [hi.1]; omega)
  rw [e]

/-- Every entry of the result array is written by some write-back: entry `b8` by point `4 b8 + 3`. -/
theorem cover (c : Dev nD) (i : S8x1x1.Idx) :
    ∃ t : Fin cfg0.N, (cfg0.win 3).flush t = true ∧ i ∈ ((cfg0.win 3).blk t).view.set := by
  have hN : cfg0.N = 32 := N_0
  have h0 : (i 0).val < 8 := (i 0).isLt
  have h1 : (i 1).val < 1 := (i 1).isLt
  have h2 : (i 2).val < 1 := (i 2).isLt
  obtain ⟨t, ht⟩ : ∃ t : Fin cfg0.N, t.val = 4 * (i 0).val + 3 := ⟨⟨4 * (i 0).val + 3, by omega⟩, rfl⟩
  have hi := idx3 t
  refine ⟨t, (flush0_3 t).mpr (by omega), ?_⟩
  show i ∈ ((View.whole main_v16).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [hi.1]; omega
  | ⟨1, _⟩ =>
    show win0_3.index t 1 * 1 ≤ (i 1).val ∧ (i 1).val < win0_3.index t 1 * 1 + 1
    rw [hi.2.1]; omega
  | ⟨2, _⟩ =>
    show win0_3.index t 2 * 1 ≤ (i 2).val ∧ (i 2).val < win0_3.index t 2 * 1 + 1
    rw [hi.2.2]; omega

/-- So the result array of the launch ends holding the trajectory tiles' totals. -/
theorem final (c : Dev nD) : (dats m 0 c).arrAt 3 cfg0.N = outArr m c :=
  (dats m 0 c).arrAt_eq_of_cover 3 (outArr m c) (flushed_eq m c) (cover c)

/-- The entries of the result array, numbered. -/
def idx8 : Fin 8 ≃ S8x1x1.Idx where
  toFun b := ix3 b 0 0
  invFun i := i 0
  left_inv _ := rfl
  right_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)

/-- The operations after the launch: the eight totals added from zero, the sum divided by 512. -/
theorem tail_eq (c : Dev nD) :
    Pipeline.afterTail₀ cfgs (dats m) 0 (V0 m) [hostOps1] c main_v18
      = fun _ => Spec.lossTiled (xA m c) (tA m c) (wA m c) := by
  unfold Pipeline.afterTail₀
  show StableHlo.after hostOps1 _ (Proc.devRef .tc main_v18) = _
  after_results
  have harr : Pipeline.withArrays (cfgs 0).spec c (V0 m c) (fun w => (dats m 0 c).arrAt w (cfgs 0).N)
      (Proc.devRef .tc main_v16) = outArr m c :=
    (Pipeline.withArrays_arr spec0 launch0.win.arr_inj c _ _ 3).trans (final m c)
  rw [harr]
  funext j
  rw [hostDivf_apply, hostReduceAdd_apply, Ideal.hostReduceAdd_total reducesTo_S8x1x1_S_d0_1_2 (fun b => b.elim0)]
  show Ideal.div (Ideal.ofBits .f32 0x00000000#32 + ∑ i : S8x1x1.Idx, outArr m c i) (Ideal.ofBits .f32 0x44000000#32) = _
  rw [Ideal.ofBits_zero_f32, zero_add, ← Equiv.sum_comp idx8]
  rfl

/-- The run, read: the result at the tiled total of the arguments, the arguments unchanged. -/
theorem run : θ_run defs (onTc (τ := τ) (main (F := Ideal))) ⟨m, fun _ => 0, ρ⟩ fun r => ∀ c : Dev nD,
      r.2.mem ((c.tc : Thread nD τ).loc main_v18) = (fun _ => Spec.lossTiled (xA m c) (tA m c) (wA m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.lean ====
/-
  A kernel for a chamfer-style guidance loss against its reference: for 64 trajectories of 2048 points and 512 targets in
  the plane, the least squared distance from each target to each trajectory, weighted by a softmax of the targets' negated
  norms, summed over trajectories and targets and divided by 512.

  The kernel works tile by tile — 8 trajectories against 128 targets at a grid point, an output block carried across the
  four target tiles of a trajectory tile and written back after the last — and the operations after the launch add the
  eight blocks and divide. The reference sums over the targets for each trajectory, divides, and adds the 64 quotients.

  * The three programs run, without a fault, and leave their arguments as they were: the kernel's two frames are the
    generated ones; the reference has no launch, and its frame is its run with the result dropped.
  * The idealization rewrote no operation, so there is nothing to preserve.
  * At the ideal instance both results are one extended real. The kernel's is `Spec.lossTiled` of the arguments and of the
    weights (`KernelValue`: the output block's contents by the two control cases of the body, the body's arithmetic at its
    one element, the input blocks as entries of the arguments, the write-backs covering the result array, the host
    operations after the launch); the reference's is `Spec.lossRows` of the same (`RefValue`); the two arrangements agree on
    all extended reals (`Spec.lossTiled_eq_lossRows`: regrouping of finite sums, and division by 512 distributing over a
    sum); and the weights are the same term of the targets on both sides, operation for operation. The precondition is
    never opened: no step needs the inputs to be finite.
-/
import proofs.«135891_j38259568673143_1_alg».proof.Defs
import proofs.«135891_j38259568673143_1_alg».proof.Proof.Gen.Kernel
import proofs.«135891_j38259568673143_1_alg».proof.Proof.Gen.Kernel.Skeleton
import proofs.«135891_j38259568673143_1_alg».proof.Proof.Gen.Kernel.Launch
import proofs.«135891_j38259568673143_1_alg».proof.Proof.Gen.Kernel.Points
import proofs.«135891_j38259568673143_1_alg».proof.Proof.Gen.Kernel.Frame
import proofs.«135891_j38259568673143_1_alg».proof.Proof.Gen.KernelIdeal
import proofs.«135891_j38259568673143_1_alg».proof.Proof.Gen.KernelIdeal.Skeleton
import proofs.«135891_j38259568673143_1_alg».proof.Proof.Gen.KernelIdeal.Launch
import proofs.«135891_j38259568673143_1_alg».proof.Proof.Gen.KernelIdeal.Points
import proofs.«135891_j38259568673143_1_alg».proof.Proof.Gen.KernelIdeal.Frame
import proofs.«135891_j38259568673143_1_alg».proof.Proof.Gen.ReferenceIdeal
import proofs.«135891_j38259568673143_1_alg».proof.Proof.Gen.ReferenceIdeal.Run
import proofs.«135891_j38259568673143_1_alg».proof.Proof.Gen.ReferenceIdeal.Read
import proofs.«135891_j38259568673143_1_alg».proof.Proof.Gen.Pre_finite_inputs
import proofs.«135891_j38259568673143_1_alg».proof.Proof.Spec
import proofs.«135891_j38259568673143_1_alg».proof.Proof.RefValue
import proofs.«135891_j38259568673143_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The weights are one term of the targets in both programs: the same operations in the same order. -/
theorem weights_eq (t : Spec.TS.Idx → EReal) :
    Cert.ReferenceIdeal.Read.val_main_v11 (F := Ideal) t = Cert.KernelIdeal.Blocks.weights (F := Ideal) t := rfl

/-- From memories that agree on the arguments the kernel's result is the tiled total and the reference's the
    trajectory-by-trajectory total of the same arguments and weights: one extended real. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v27_eq, Cert.ReferenceIdeal.RefValue.result_eq,
    weights_eq, ← Spec.lossTiled_eq_lossRows]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
